-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x8192 : Shape := ⟨3, ![64, 64, 8192]⟩
abbrev S_ : Shape := ⟨0, ![]⟩

class Facts : Prop where
  bcast_S_S64x64x8192 : S_.BroadcastsInDim S64x64x8192 (![] : Fin 0 → Fin S64x64x8192.rank)
  reducesTo_S64x64x8192_S_d0_1_2 : S64x64x8192.ReducesTo [0, 1, 2] S_
  h_S_ : 0 < S_.numel

variable [Facts]

def fn {F : FTy → Type} [FloatOps F] (main_arg0 : FVec F S64x64x8192 .f32) (main_arg1 : FVec F S64x64x8192 .f32) : IVec S_ 1 :=
  let main_v0 : FVec F S64x64x8192 .f32 := Host.absf main_arg0
  let main_cst : FVec F S_ .f32 := constant S_ .f32 0x7F800000#32
  let main_v1 : FVec F S64x64x8192 .f32 := broadcastInDim S64x64x8192 ![] bcast_S_S64x64x8192 main_cst
  let main_v2 : IVec S64x64x8192 1 := cmpf .olt main_v0 main_v1
  let main_c : IVec S_ 1 := constantI S_ 1 1#1
  let main_v3 : IVec S_ 1 := (fun x v => Host.reduce IntOp.andi x v reducesTo_S64x64x8192_S_d0_1_2 h_S_) main_v2 main_c
  let main_v4 : FVec F S64x64x8192 .f32 := Host.absf main_arg1
  let main_cst_0 : FVec F S_ .f32 := constant S_ .f32 0x7F800000#32
  let main_v5 : FVec F S64x64x8192 .f32 := broadcastInDim S64x64x8192 ![] bcast_S_S64x64x8192 main_cst_0
  let main_v6 : IVec S64x64x8192 1 := cmpf .olt main_v4 main_v5
  let main_c_1 : IVec S_ 1 := constantI S_ 1 1#1
  let main_v7 : IVec S_ 1 := (fun x v => Host.reduce IntOp.andi x v reducesTo_S64x64x8192_S_d0_1_2 h_S_) main_v6 main_c_1
  let main_v8 : IVec S_ 1 := andi main_v3 main_v7
  main_v8
-- ==== Kernel.lean ====
abbrev S64x64x8192 : Shape := ⟨3, ![64, 64, 8192]⟩
abbrev S4096x8192 : Shape := ⟨2, ![4096, 8192]⟩
abbrev S128x8192 : Shape := ⟨2, ![128, 8192]⟩
abbrev S128 : Shape := ⟨1, ![128]⟩
abbrev S128x1 : Shape := ⟨2, ![128, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x64x8192, .f32⟩
  | .hbm, ⟨1, _⟩ => ⟨S64x64x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S64x64x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S64x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x64x8192_S4096x8192 : S64x64x8192.ShapeCasts S4096x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  shapeCasts_S4096x8192_S64x64x8192 : S4096x8192.ShapeCasts S64x64x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)

variable [Facts₀]

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x64x8192 : Shape := ⟨3, ![64, 64, 8192]⟩
abbrev S_ : Shape := ⟨0, ![]⟩
abbrev S64x64 : Shape := ⟨2, ![64, 64]⟩
abbrev S64x64x1 : Shape := ⟨3, ![64, 64, 1]⟩

abbrev nBuf : Space → Nat
  | .hbm => 17
  | .vmem => 0
  | .smem => 0
  | _ => 0

abbrev bufTy : (tb : Table) → Fin (tcTables nBuf tb) → BufTy
  | .hbm, ⟨0, _⟩ => ⟨S64x64x8192, .f32⟩
  | .hbm, ⟨1, _⟩ => ⟨S64x64x8192, .f32⟩
  | .hbm, ⟨2, _⟩ => ⟨S_, .f32⟩
  | .hbm, ⟨3, _⟩ => ⟨S64x64, .f32⟩
  | .hbm, ⟨4, _⟩ => ⟨S64x64x1, .f32⟩
  | .hbm, ⟨5, _⟩ => ⟨S_, .f32⟩
  | .hbm, ⟨6, _⟩ => ⟨S64x64x1, .f32⟩
  | .hbm, ⟨7, _⟩ => ⟨S64x64x1, .f32⟩
  | .hbm, ⟨8, _⟩ => ⟨S_, .f32⟩
  | .hbm, ⟨9, _⟩ => ⟨S64x64, .f32⟩
  | .hbm, ⟨10, _⟩ => ⟨S64x64x1, .f32⟩
  | .hbm, ⟨11, _⟩ => ⟨S_, .f32⟩
  | .hbm, ⟨12, _⟩ => ⟨S64x64x1, .f32⟩
  | .hbm, ⟨13, _⟩ => ⟨S64x64x1, .f32⟩
  | .hbm, ⟨14, _⟩ => ⟨S64x64x1, .f32⟩
  | .hbm, ⟨15, _⟩ => ⟨S64x64x8192, .f32⟩
  | .hbm, ⟨16, _⟩ => ⟨S64x64x8192, .f32⟩
  | _, _ => ⟨S64x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S64x64x8192_S64x64_d2 : S64x64x8192.ReducesTo [2] S64x64
  h_S_ : 0 < S_.numel
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x8192_0_1_2 : S64x64x1.BroadcastsInDim S64x64x8192 (![0, 1, 2] : Fin 3 → Fin S64x64x8192.rank)

variable [Facts₀]

class Facts : Prop extends Facts₀ where

variable [Facts]
-- ==== Proof.Spec.lean ====
/-
  The function both programs compute, stated once over the extended reals.

  For a row of 8192 lanes, the kernel and the reference both return the row's second operand scaled by
  the sum of the two operands' row means, each mean the row's sum divided by the same constant word
  (the float 8192).  Nothing is distributed and nothing cancelled, so the statement needs no finiteness:
  each side is the same tree of sums, quotients, one sum and one product, read at an index.

  `rowsMean` is that function over a [R, 8192] array of rows (the kernel's region sees the arguments
  as 4096 rows); `cubeMean` is the same over the [64, 64, 8192] arguments as the reference sees them.
  `cubeMean_of_rows` joins them: row `64·b + c` of the flattened array is row `(b, c)` of the cube.
-/
import Idealize.ShloMosaic.PureOps.Ideal
import Idealize.ShloMosaic.PureOps.Ideal.Laws
import Idealize.ShloMosaic.Lib.ValueIdx
import Idealize.ShloMosaic.Lib.Pipeline.Value

noncomputable section

namespace Cert.RowMean

open Idealize.ShloMosaic Idealize.ShloMosaic.ValueIdx

/-- The divisor both programs write: the float word of 8192, read at the extended reals. -/
abbrev len : EReal := Ideal.ofBits .f32 0x46000000#32

/-- Over `R` rows of 8192 lanes: `Y[r, l] · ((Σₖ X[r, k]) / len + (Σₖ Y[r, k]) / len)`. -/
def rowsMean {R : Nat} (X Y : (⟨2, ![R, 8192]⟩ : Shape).Idx → EReal) : (⟨2, ![R, 8192]⟩ : Shape).Idx → EReal :=
  fun j => Y j * (Ideal.div (∑ k : Fin 8192, X (ix2 (j 0) k)) len + Ideal.div (∑ k : Fin 8192, Y (ix2 (j 0) k)) len)

/-- Over the [64, 64, 8192] arguments: `y[b, c, l] · ((Σₖ x[b, c, k]) / len + (Σₖ y[b, c, k]) / len)`. -/
def cubeMean (x y : (⟨3, ![64, 64, 8192]⟩ : Shape).Idx → EReal) : (⟨3, ![64, 64, 8192]⟩ : Shape).Idx → EReal :=
  fun i => y i * (Ideal.div (∑ k : Fin 8192, x (ix3 (i 0) (i 1) k)) len + Ideal.div (∑ k : Fin 8192, y (ix3 (i 0) (i 1) k)) len)

/-- A block of rows read back: if the block's rows `x0`, `x1` at row `p` are the arrays' rows `X`, `Y` at row `r`,
    and the block's entry at `(p, q)` is `Y` at an index `i` of row `r`, then the body's value there is the rows'
    function at `i`. -/
theorem rowsMean_of_block {R : Nat} (X Y : (⟨2, ![R, 8192]⟩ : Shape).Idx → EReal)
    (x0 x1 : (⟨2, ![128, 8192]⟩ : Shape).Idx → EReal) (r : Fin R) (p : Fin 128) (q : Fin 8192)
    (i : (⟨2, ![R, 8192]⟩ : Shape).Idx) (hi : i 0 = r)
    (h0 : ∀ k : Fin 8192, x0 (ix2 p k) = X (ix2 r k)) (h1 : ∀ k : Fin 8192, x1 (ix2 p k) = Y (ix2 r k))
    (hq : x1 (ix2 p q) = Y i) :
    x1 (ix2 p q) * (Ideal.div (∑ k : Fin 8192, x0 (ix2 p k)) len + Ideal.div (∑ k : Fin 8192, x1 (ix2 p k)) len)
      = rowsMean X Y i := by
  unfold rowsMean
  show _ = Y i * (Ideal.div (∑ k : Fin 8192, X (ix2 (i 0) k)) len + Ideal.div (∑ k : Fin 8192, Y (ix2 (i 0) k)) len)
  rw [hq, Finset.sum_congr rfl (fun k _ => h0 k), Finset.sum_congr rfl (fun k _ => h1 k)]
  have e : (i 0 : Fin R) = r := hi
  rw [e]

/-- The flattened row of a cube index: `(b, c) ↦ 64·b + c`. -/
abbrev flatRow (b c : Fin 64) : Fin 4096 := ⟨b.val * 64 + c.val, by have := b.isLt; have := c.isLt; omega⟩

/-- If `X`, `Y` are the cube's arrays `x`, `y` with the two leading axes flattened, the rows' function at the
    flattened index is the cube's function at the index. -/
theorem cubeMean_of_rows (x y : (⟨3, ![64, 64, 8192]⟩ : Shape).Idx → EReal)
    (X Y : (⟨2, ![4096, 8192]⟩ : Shape).Idx → EReal)
    (hX : ∀ (b c : Fin 64) (l : Fin 8192), X (ix2 (flatRow b c) l) = x (ix3 b c l))
    (hY : ∀ (b c : Fin 64) (l : Fin 8192), Y (ix2 (flatRow b c) l) = y (ix3 b c l))
    (b c : Fin 64) (l : Fin 8192) :
    rowsMean X Y (ix2 (flatRow b c) l) = cubeMean x y (ix3 b c l) := by
  unfold rowsMean cubeMean
  show Y (ix2 (flatRow b c) l) * (Ideal.div (∑ k : Fin 8192, X (ix2 (flatRow b c) k)) len + Ideal.div (∑ k : Fin 8192, Y (ix2 (flatRow b c) k)) len)
      = y (ix3 b c l) * (Ideal.div (∑ k : Fin 8192, x (ix3 b c k)) len + Ideal.div (∑ k : Fin 8192, y (ix3 b c k)) len)
  rw [hY b c l, Finset.sum_congr rfl (fun k _ => hX b c k), Finset.sum_congr rfl (fun k _ => hY b c k)]

end Cert.RowMean

end
-- ==== Proof.Payload.lean ====
/-
  The kernel body's stored value, read at an index of the block.

  The body loads a block of 128 rows of each operand, sums each row over its 8192 lanes, divides each sum
  by the constant, adds the two quotients (a column of 128 numbers), spreads that column over the lanes and
  multiplies the second operand's block by it.  At row `p`, lane `q` this is
  `x1[p, q] · ((Σₖ x0[p, k]) / len + (Σₖ x1[p, k]) / len)`: the same-shape casts are identities, the
  column [128] → [128, 1] keeps the row, the spread [128, 1] → [128, 8192] reads the row's entry, and a lane
  reduction over one axis is the sum over that axis's coordinates.
-/
import proofs.«174861_j936302870541_1_alg».proof.Proof.Gen.KernelIdeal.Skeleton
import proofs.«174861_j936302870541_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.RowMean

/-- A lane sum of a [128, 8192] block, kept as a column [128, 1], read at row `p`: the sum of the row. -/
theorem rowSum_apply (v : FVec Ideal S128x8192 .f32) (h : S128x8192.Reduces [1] S128) (hφ : FKind.Formats .f32)
    (hacc : (0x00000000#32 : BitVec 32) = FKind.add.neutral .f32 hφ) (hc : S128.ShapeCasts S128x1) (p : Fin 128) (z : Fin 1) :
    shapeCast S128x1 (multiReduction .add [1] S128 v 0x00000000#32 h hφ hacc) hc (ix2 p z) = ∑ k : Fin 8192, v (ix2 p k) := by
  refine (shapeCast_apply _ hc (ix2 p z) (ix1 p) ?_).trans ?_
  · rw [Shape.rowMajor_val_one, Shape.rowMajor_val_two]
    show p.val = p.val * 1 + z.val
    have := z.isLt; omega
  · refine (Ideal.multiReduction_add_single v 0x00000000#32 h hφ hacc (ix1 p)).trans ?_
    refine Finset.sum_congr rfl fun k _ => ?_
    exact congrArg v (funext fun a => Fin.ext (by match a with | ⟨0, _⟩ => rfl | ⟨1, _⟩ => rfl))

/-- The body's stored value at row `p`, lane `q` of the block. -/
theorem pay_apply (x0 x1 : Vec Ideal S128x8192 .f32) (p : Fin 128) (q : Fin 8192) :
    k0_pay1 (F := Ideal) x0 x1 (ix2 p q)
      = x1 (ix2 p q) * (Ideal.div (∑ k : Fin 8192, x0 (ix2 p k)) len + Ideal.div (∑ k : Fin 8192, x1 (ix2 p k)) len) := by
  unfold k0_pay1
  refine (mulf_apply _ _ (ix2 p q)).trans ?_
  refine congrArg₂ (· * ·) (congrFun (shapeCast_self x1 _) (ix2 p q)) ?_
  refine (broadcastTo_apply _ broadcasts_S128x1_S128x8192 (ix2 p q) (ix2 p (0 : Fin 1)) ?_).trans ?_
  · intro a
    match a with
    | ⟨0, _⟩ => show p.val = if (128 : Nat) = 1 then 0 else p.val; rw [if_neg (by decide)]
    | ⟨1, _⟩ => show 0 = if (1 : Nat) = 1 then 0 else q.val; rw [if_pos rfl]
  refine (addf_apply _ _ _).trans ?_
  refine congrArg₂ (· + ·) ?_ ?_
  · refine (divf_apply _ _ _).trans ?_
    refine congrArg₂ Ideal.div ?_ rfl
    refine (rowSum_apply _ _ _ _ _ p 0).trans ?_
    exact Finset.sum_congr rfl fun k _ => congrFun (shapeCast_self x0 _) _
  · refine (divf_apply _ _ _).trans ?_
    refine congrArg₂ Ideal.div ?_ rfl
    refine (rowSum_apply _ _ _ _ _ p 0).trans ?_
    exact Finset.sum_congr rfl fun k _ => congrFun (shapeCast_self x1 _) _

end Cert.KernelIdeal.Payload

end
-- ==== Proof.KernelValue.lean ====
/-
  What the idealized kernel's result holds after its run, as one function of the arguments.

  The region sees each [64, 64, 8192] argument flattened to 4096 rows; grid point `t` stages rows
  `128·t … 128·t + 127` of both operands, whole rows, and writes the same rows of the result.  Since a block holds
  whole rows, a row's sum inside the block is the row's sum in the array, so what point `t` writes back is block
  `t` of the rows' function `rowsMean`; the 32 blocks tile the 4096 rows, so the region's result array IS that
  function.  The line after the region unflattens it, and row `64·b + c` of the flattened array is row `(b, c)`.
-/
import proofs.«174861_j936302870541_1_alg».proof.Proof.Gen.KernelIdeal.Frame
import proofs.«174861_j936302870541_1_alg».proof.Proof.Payload
import Idealize.ShloMosaic.Lib.Pipeline.Value
import Idealize.ShloMosaic.Lib.StableHlo.Run

set_option maxRecDepth 16384

noncomputable section

namespace Cert.KernelIdeal.RowValue

open Idealize.ShloMosaic Idealize.ShloMosaic.TcCoe Idealize.ShloMosaic.ValueIdx Idealize.SL.Sem
open Cert.KernelIdeal Cert.KernelIdeal.Gen Cert.KernelIdeal.Payload Cert.RowMean
open Idealize.ShloMosaic.Pipeline (Dat Cfg Window)

variable (m : (ℓ : Loc nD τ sig) → Buf (Elt Ideal) ℓ) (ρ : Dev nD → PrngReg)

theorem offsets_zero : (![0, 0] : Fin 2 → Nat) = fun _ => 0 := funext fun a => by fin_cases a <;> rfl

/-- The two flattened operands as the region finds them, and the two blocks point `t` stages, at their literal types. -/
abbrev rowsX (c : Dev nD) : (⟨2, ![4096, 8192]⟩ : Shape).Idx → EReal := V m c main_v0
abbrev rowsY (c : Dev nD) : (⟨2, ![4096, 8192]⟩ : Shape).Idx → EReal := V m c main_v1
abbrev blkX (c : Dev nD) (t : Fin cfg0.N) : (⟨2, ![128, 8192]⟩ : Shape).Idx → EReal := iblk m c 0 t
abbrev blkY (c : Dev nD) (t : Fin cfg0.N) : (⟨2, ![128, 8192]⟩ : Shape).Idx → EReal := iblk m c 1 t

/-- The printed index maps over the grid: the three windows move together along the rows, one block per point, and
    sit at lane block 0. -/
theorem idx_facts : ∀ t : Fin cfg0.N, win0_0.index t (0 : Fin 2) = win0_2.index t (0 : Fin 2)
    ∧ win0_1.index t (0 : Fin 2) = win0_2.index t (0 : Fin 2)
    ∧ win0_0.index t (1 : Fin 2) = 0 ∧ win0_1.index t (1 : Fin 2) = 0 ∧ win0_2.index t (1 : Fin 2) = 0
    ∧ win0_2.index t (0 : Fin 2) ≤ 31 :=
  (by decide +kernel : ∀ t : Fin grid0.N, _)

/-- Every row block is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-- WHAT POINT `t` WRITES BACK is block `t` of the rows' function of the flattened operands. -/
theorem flushed_eq (c : Dev nD) (t : Fin cfg0.N) :
    (dats m 0 c).flushed 2 t = ((cfg0.win 2).blk t).view.read (Elt Ideal) (rowsMean (rowsX m c) (rowsY m c)) := by
  show (cfg0.win 2).cut (grid0.coords t) ((dats m 0 c).after 2 t) = _
  rw [after0_2]
  unfold out0_2
  rw [View.canon_unit_zero offsets_zero]
  simp only [View.ld_unit_zero (S := S128x8192) offsets_zero]
  funext j
  show k0_pay1 (F := Ideal) (blkX m c t) (blkY m c t) j
      = rowsMean (rowsX m c) (rowsY m c) (((cfg0.win 2).blk t).view.emb j)
  obtain ⟨p, q, rfl⟩ : ∃ (p : Fin 128) (q : Fin 8192), j = ix2 p q := ⟨j 0, j 1, eq_ix2 j⟩
  refine (pay_apply (blkX m c t) (blkY m c t) p q).trans ?_
  obtain ⟨e0, e1, e2, e3, e4, e5⟩ := idx_facts t
  have hp : p.val < 128 := p.isLt
  refine rowsMean_of_block (rowsX m c) (rowsY m c) (blkX m c t) (blkY m c t)
    ⟨win0_2.index t (0 : Fin 2) * 128 + p.val, by omega⟩ p q _ ?_ ?_ ?_ ?_
  · exact Fin.ext (show win0_2.index t (0 : Fin 2) * 128 + 1 * p.val = win0_2.index t (0 : Fin 2) * 128 + p.val by omega)
  · intro k
    show V m c main_v0 (((cfg0.win 0).blk t).view.emb (ix2 p k)) = V m c main_v0 _
    refine congrArg (V m c main_v0) (funext fun a => Fin.ext ?_)
    match a with
    | ⟨0, _⟩ => show win0_0.index t (0 : Fin 2) * 128 + 1 * p.val = win0_2.index t (0 : Fin 2) * 128 + p.val; omega
    | ⟨1, _⟩ => show win0_0.index t (1 : Fin 2) * 8192 + 1 * k.val = k.val; omega
  · intro k
    show V m c main_v1 (((cfg0.win 1).blk t).view.emb (ix2 p k)) = V m c main_v1 _
    refine congrArg (V m c main_v1) (funext fun a => Fin.ext ?_)
    match a with
    | ⟨0, _⟩ => show win0_1.index t (0 : Fin 2) * 128 + 1 * p.val = win0_2.index t (0 : Fin 2) * 128 + p.val; omega
    | ⟨1, _⟩ => show win0_1.index t (1 : Fin 2) * 8192 + 1 * k.val = k.val; omega
  · show V m c main_v1 (((cfg0.win 1).blk t).view.emb (ix2 p q)) = V m c main_v1 (((cfg0.win 2).blk t).view.emb (ix2 p q))
    refine congrArg (V m c main_v1) (funext fun a => Fin.ext ?_)
    match a with
    | ⟨0, _⟩ => show win0_1.index t (0 : Fin 2) * 128 + 1 * p.val = win0_2.index t (0 : Fin 2) * 128 + 1 * p.val; omega
    | ⟨1, _⟩ => show win0_1.index t (1 : Fin 2) * 8192 + 1 * q.val = win0_2.index t (1 : Fin 2) * 8192 + 1 * q.val; omega

/-- An index of the result array is in point `t`'s block iff each coordinate is in the block's range on its axis. -/
theorem mem_blk (t : Fin cfg0.N) (i : S4096x8192.Idx) :
    i ∈ ((cfg0.win 2).blk t).view.set ↔ ∀ a : Fin 2, win0_2.index t a * S128x8192.size a ≤ (i a).val
      ∧ (i a).val < win0_2.index t a * S128x8192.size a + S128x8192.size a := by
  show i ∈ ((View.whole main_v2).slice (win0_2.rect t)).set ↔ _
  rw [View.set_slice_whole, Rect.mem_set_unit]
  exact Iff.rfl

/-- Every index of the result array is in some point's block: row `r` is in block `r / 128`. -/
theorem cover (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- THE REGION'S RESULT ARRAY after the run is the rows' function of the flattened operands. -/
theorem final (c : Dev nD) : (dats m 0 c).arrAt 2 cfg0.N = rowsMean (rowsX m c) (rowsY m c) :=
  (dats m 0 c).arrAt_eq_of_cover 2 _ (fun t _ => flushed_eq m c t) cover

/-- The lines before the region flatten the two arguments. -/
theorem rowsX_eq (c : Dev nD) :
    rowsX m c = shapeCast S4096x8192 (m ((c : Thread nD τ).loc main_arg0)) shapeCasts_S64x64x8192_S4096x8192 := by
  show StableHlo.after hostOps0 (fun b => m (c, b)) (Proc.devRef .tc main_v0) = _
  after_results
  rfl
theorem rowsY_eq (c : Dev nD) :
    rowsY m c = shapeCast S4096x8192 (m ((c : Thread nD τ).loc main_arg1)) shapeCasts_S64x64x8192_S4096x8192 := by
  show StableHlo.after hostOps0 (fun b => m (c, b)) (Proc.devRef .tc main_v1) = _
  after_results
  rfl

/-- Flattening read at an index: row `64·b + c`, lane `l` of the flattened array is entry `(b, c, l)`. -/
theorem flatten_apply (x : S64x64x8192.Idx → EReal) (h : S64x64x8192.ShapeCasts S4096x8192) (b c' : Fin 64) (l : Fin 8192) :
    shapeCast S4096x8192 x h (ix2 (flatRow b c') l) = x (ix3 b c' l) := by
  refine shapeCast_apply x h (ix2 (flatRow b c') l) (ix3 b c' l) ?_
  rw [Shape.rowMajor_val_three, Shape.rowMajor_val_two]
  show (b.val * 64 + c'.val) * 8192 + l.val = (b.val * 64 + c'.val) * 8192 + l.val
  rfl

/-- Unflattening read at an index: entry `(b, c, l)` of the cube is row `64·b + c`, lane `l` of the rows. -/
theorem unflatten_apply (Z : S4096x8192.Idx → EReal) (h : S4096x8192.ShapeCasts S64x64x8192) (b c' : Fin 64) (l : Fin 8192) :
    shapeCast S64x64x8192 Z h (ix3 b c' l) = Z (ix2 (flatRow b c') l) := by
  refine shapeCast_apply Z h (ix3 b c' l) (ix2 (flatRow b c') l) ?_
  rw [Shape.rowMajor_val_three, Shape.rowMajor_val_two]
  show (b.val * 64 + c'.val) * 8192 + l.val = (b.val * 64 + c'.val) * 8192 + l.val
  rfl

/-- The line after the region unflattens the region's result array. -/
theorem tail_eq (c : Dev nD) :
    Pipeline.afterTail₀ cfgs (dats m) 0 (V0 m) [hostOps1] c main_v3
      = shapeCast S64x64x8192 (rowsMean (rowsX m c) (rowsY m c)) shapeCasts_S4096x8192_S64x64x8192 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = rowsMean (rowsX m c) (rowsY m c) :=
    (Pipeline.withArrays_arr spec0 launch0.win.arr_inj c _ _ 2).trans (final m c)
  rw [e]
  rfl

/-- THE KERNEL'S RESULT after the run is the cube's function of the two arguments. -/
theorem result_eq (c : Dev nD) :
    Pipeline.afterTail₀ cfgs (dats m) 0 (V0 m) [hostOps1] c main_v3
      = cubeMean (m ((c : Thread nD τ).loc main_arg0)) (m ((c : Thread nD τ).loc main_arg1)) := by
  rw [tail_eq]
  funext i
  obtain ⟨b, c', l, rfl⟩ : ∃ (b c' : Fin 64) (l : Fin 8192), i = ix3 b c' l := ⟨i 0, i 1, i 2, eq_ix3 i⟩
  refine (unflatten_apply _ shapeCasts_S4096x8192_S64x64x8192 b c' l).trans ?_
  refine cubeMean_of_rows _ _ (rowsX m c) (rowsY m c) ?_ ?_ b c' l
  · intro b c' l
    rw [rowsX_eq]
    exact flatten_apply _ _ b c' l
  · intro b c' l
    rw [rowsY_eq]
    exact flatten_apply _ _ b c' l

/-- The run, read: every weakly fair execution of the idealized kernel ends with its result at the cube's function of
    the arguments and the arguments unchanged. -/
theorem run : θ_run defs (onTc (τ := τ) (main (F := Ideal))) ⟨m, fun _ => 0, ρ⟩ fun r => ∀ c : Dev nD,
      r.2.mem ((c.tc : Thread nD τ).loc main_v3)
        = cubeMean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RowValue

end
-- ==== Proof.RefValue.lean ====
/-
  The reference's result is the cube's function `cubeMean` of its arguments.

  The reference sums each (b, c) row of both arguments over the last axis from the initial value zero, divides each
  sum by the constant, adds the two, spreads the sum over the lanes and multiplies by the second argument.  Read at
  an index (b, c, l) operation by operation, with the zero initial value dropped, this is
  `y[b, c, l] · ((Σₖ x[b, c, k]) / len + (Σₖ y[b, c, k]) / len)`.
-/
import proofs.«174861_j936302870541_1_alg».proof.Proof.Gen.ReferenceIdeal.Read
import proofs.«174861_j936302870541_1_alg».proof.Proof.Spec
import Idealize.ShloMosaic.Lib.ValueIdx
import Idealize.ShloMosaic.PureOps.Ideal.Laws

noncomputable section

namespace Cert.ReferenceIdeal.RowValue

open Idealize.ShloMosaic Idealize.ShloMosaic.ValueIdx Cert.ReferenceIdeal Cert.ReferenceIdeal.Read Cert.RowMean

/-- The row an index of the result reads its two sums from: the composed index maps of the three broadcasts. -/
theorem sum_idx_x (b c : Fin 64) (l : Fin 8192) (k : Fin 8192) :
    idx_main_v0 (idx_main_v1 (idx_main_v9 (ix3 b c l))) k = ix3 b c k :=
  funext fun a => Fin.ext (by match a with | ⟨0, _⟩ => rfl | ⟨1, _⟩ => rfl | ⟨2, _⟩ => rfl)
theorem sum_idx_y (b c : Fin 64) (l : Fin 8192) (k : Fin 8192) :
    idx_main_v4 (idx_main_v5 (idx_main_v9 (ix3 b c l))) k = ix3 b c k :=
  funext fun a => Fin.ext (by match a with | ⟨0, _⟩ => rfl | ⟨1, _⟩ => rfl | ⟨2, _⟩ => rfl)

/-- The reference's last stage is the cube's function. -/
theorem ref_eq (x y : (⟨S64x64x8192, .f32⟩ : BufTy).Contents (Elt Ideal)) :
    val_main_v10 (F := Ideal) x y = cubeMean x y := by
  funext i
  obtain ⟨b, c, l, rfl⟩ : ∃ (b c : Fin 64) (l : Fin 8192), i = ix3 b c l := ⟨i 0, i 1, i 2, eq_ix3 i⟩
  rw [val_main_v10_apply, val_main_v9_apply, val_main_v8_apply, val_main_v3_apply, val_main_v7_apply,
    val_main_v1_apply, val_main_v5_apply, val_main_v2_apply, val_main_v6_apply, val_main_v0_apply, val_main_v4_apply,
    val_main_cst_apply, val_main_cst_1_apply, val_main_cst_0_apply, val_main_cst_2_apply]
  simp only [sum_idx_x, sum_idx_y, Ideal.mulf_def, Ideal.addf_def, Ideal.hostDivf_def, Ideal.ofBits_def,
    Ideal.ofBits_zero_f32, zero_add]
  rfl

end Cert.ReferenceIdeal.RowValue

end
-- ==== Proof.lean ====
/-
  The kernel `y · (mean(x, lanes) + mean(y, lanes))` over two [64, 64, 8192] arguments against its jnp reference, over
  the extended reals.

  The kernel flattens the two leading axes, runs one pipelined region of 32 points, each on a block of 128 whole rows,
  and unflattens the result; in a block it sums each row of each operand over its 8192 lanes, divides each sum by the
  constant 8192, adds the two quotients, and multiplies the second operand's row by that number.  The reference does
  the same on the unflattened arrays: two sums over the last axis (from the initial value zero), two quotients by the
  same constant, one sum, one product.  Operation for operation the two are the same tree over the extended reals —
  the kernel's lane sum and the host's sum from zero are the same sum, both divisions are the one extended-real
  quotient by the same word — so no law of arithmetic and no finiteness is used: the proof is the bookkeeping of
  indices (a block's row is the array's row since a block holds whole rows; row 64·b + c of the flattened array is
  row (b, c)).

  Spec.lean states the function once (`rowsMean` over rows, `cubeMean` over the cube) and joins the two;
  Payload.lean reads the body's stored value at an index; KernelValue.lean reads the region's array off the frame
  run, the reshapes around it, and states the kernel's run; RefValue.lean reads the reference stage by stage.
-/
import proofs.«174861_j936302870541_1_alg».proof.Defs
import proofs.«174861_j936302870541_1_alg».proof.Proof.Gen.Kernel
import proofs.«174861_j936302870541_1_alg».proof.Proof.Gen.Kernel.Skeleton
import proofs.«174861_j936302870541_1_alg».proof.Proof.Gen.Kernel.Launch
import proofs.«174861_j936302870541_1_alg».proof.Proof.Gen.Kernel.Points
import proofs.«174861_j936302870541_1_alg».proof.Proof.Gen.Kernel.Frame
import proofs.«174861_j936302870541_1_alg».proof.Proof.Gen.KernelIdeal
import proofs.«174861_j936302870541_1_alg».proof.Proof.Gen.KernelIdeal.Skeleton
import proofs.«174861_j936302870541_1_alg».proof.Proof.Gen.KernelIdeal.Launch
import proofs.«174861_j936302870541_1_alg».proof.Proof.Gen.KernelIdeal.Points
import proofs.«174861_j936302870541_1_alg».proof.Proof.Gen.KernelIdeal.Frame
import proofs.«174861_j936302870541_1_alg».proof.Proof.Gen.ReferenceIdeal
import proofs.«174861_j936302870541_1_alg».proof.Proof.Gen.Pre_finite_inputs
import proofs.«174861_j936302870541_1_alg».proof.Proof.Gen.ReferenceIdeal.Run
import proofs.«174861_j936302870541_1_alg».proof.Proof.Gen.ReferenceIdeal.Read
import proofs.«174861_j936302870541_1_alg».proof.Proof.KernelValue
import proofs.«174861_j936302870541_1_alg».proof.Proof.RefValue
import Idealize.ShloMosaic.Adequacy
import Idealize.ShloMosaic.Init

noncomputable section

namespace Cert.Proof

open Idealize.ShloMosaic Idealize.SL.Sem Cert.Kernel

/-- The word-level kernel and its idealization run, fault nothing and leave the two arguments as they were: the
    generated frame of the one pipelined region with its flattening lines before and its unflattening line after. -/
theorem frame_kernel : Cert.frame_Kernel := fun m ρ _ => Cert.Kernel.Gen.frame m ρ
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read at the extended reals. -/
theorem preserves : Cert.preserves_Kernel_KernelIdeal := trivial

/-- Both idealized programs end with `y[b, c, l] · ((Σₖ x[b, c, k]) / 8192 + (Σₖ y[b, c, k]) / 8192)` at every index: the
    kernel's run read through its blocks and the two reshapes, the reference's run read stage by stage, are the one
    function `cubeMean` of arguments that agree. -/
theorem algebraic : Cert.algebraic_KernelIdeal_ReferenceIdeal := by
  intro m ρ m' ρ' _ hagree
  refine ⟨fun c => Cert.RowMean.cubeMean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RowValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
